-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S10000x128 : Shape := ⟨2, ![10000, 128]⟩
abbrev S740000x128 : Shape := ⟨2, ![740000, 128]⟩
abbrev S1x128 : Shape := ⟨2, ![1, 128]⟩
abbrev S100000x64 : Shape := ⟨2, ![100000, 64]⟩
abbrev S10000x64 : Shape := ⟨2, ![10000, 64]⟩
abbrev S740000x64 : Shape := ⟨2, ![740000, 64]⟩
abbrev S1x64 : Shape := ⟨2, ![1, 64]⟩

abbrev nBuf : Space → Nat
  | .hbm => 114
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x640000, .i32⟩
  | .hbm, ⟨10, _⟩ => ⟨S640000, .i32⟩
  | .hbm, ⟨11, _⟩ => ⟨S740000, .i32⟩
  | .hbm, ⟨12, _⟩ => ⟨S1x640000, .i32⟩
  | .hbm, ⟨13, _⟩ => ⟨S640000, .i32⟩
  | .hbm, ⟨14, _⟩ => ⟨S740000, .i32⟩
  | .hbm, ⟨15, _⟩ => ⟨S_, .f32⟩
  | .hbm, ⟨16, _⟩ => ⟨S740000, .f32⟩
  | .hbm, ⟨17, _⟩ => ⟨S_, .f32⟩
  | .hbm, ⟨18, _⟩ => ⟨S100000, .f32⟩
  | .hbm, ⟨19, _⟩ => ⟨S740000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S740000, .i32⟩
  | .hbm, ⟨31, _⟩ => ⟨S740000, .i1⟩
  | .hbm, ⟨32, _⟩ => ⟨S_, .i32⟩
  | .hbm, ⟨33, _⟩ => ⟨S740000, .i32⟩
  | .hbm, ⟨34, _⟩ => ⟨S740000, .i32⟩
  | .hbm, ⟨35, _⟩ => ⟨S740000, .i32⟩
  | .hbm, ⟨36, _⟩ => ⟨S740000x1, .i32⟩
  | .hbm, ⟨37, _⟩ => ⟨S740000, .f32⟩
  | .hbm, ⟨38, _⟩ => ⟨S_, .i32⟩
  | .hbm, ⟨39, _⟩ => ⟨S740000, .i32⟩
  | .hbm, ⟨40, _⟩ => ⟨S740000, .i1⟩
  | .hbm, ⟨41, _⟩ => ⟨S_, .i32⟩
  | .hbm, ⟨42, _⟩ => ⟨S740000, .i32⟩
  | .hbm, ⟨43, _⟩ => ⟨S740000, .i32⟩
  | .hbm, ⟨44, _⟩ => ⟨S740000, .i32⟩
  | .hbm, ⟨45, _⟩ => ⟨S740000x1, .i32⟩
  | .hbm, ⟨46, _⟩ => ⟨S740000, .f32⟩
  | .hbm, ⟨47, _⟩ => ⟨S740000, .f32⟩
  | .hbm, ⟨48, _⟩ => ⟨S100000x128, .f32⟩
  | .hbm, ⟨49, _⟩ => ⟨S_, .i32⟩
  | .hbm, ⟨50, _⟩ => ⟨S740000, .i32⟩
  | .hbm, ⟨51, _⟩ => ⟨S740000, .i1⟩
  | .hbm, ⟨52, _⟩ => ⟨S_, .i32⟩
  | .hbm, ⟨53, _⟩ => ⟨S740000, .i32⟩
  | .hbm, ⟨54, _⟩ => ⟨S740000, .i32⟩
  | .hbm, ⟨55, _⟩ => ⟨S740000, .i32⟩
  | .hbm, ⟨56, _⟩ => ⟨S740000x1, .i32⟩
  | .hbm, ⟨57, _⟩ => ⟨S740000x128, .f32⟩
  | .hbm, ⟨58, _⟩ => ⟨S740000x1, .f32⟩
  | .hbm, ⟨59, _⟩ => ⟨S740000x128, .f32⟩
  | .hbm, ⟨60, _⟩ => ⟨S740000x128, .f32⟩
  | .hbm, ⟨61, _⟩ => ⟨S_, .f32⟩
  | .hbm, ⟨62, _⟩ => ⟨S100000x128, .f32⟩
  | .hbm, ⟨63, _⟩ => ⟨S740000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S740000, .i32⟩
  | .hbm, ⟨74, _⟩ => ⟨S740000, .i1⟩
  | .hbm, ⟨75, _⟩ => ⟨S_, .i32⟩
  | .hbm, ⟨76, _⟩ => ⟨S740000, .i32⟩
  | .hbm, ⟨77, _⟩ => ⟨S740000, .i32⟩
  | .hbm, ⟨78, _⟩ => ⟨S740000, .i32⟩
  | .hbm, ⟨79, _⟩ => ⟨S740000x1, .i32⟩
  | .hbm, ⟨80, _⟩ => ⟨S740000x128, .f32⟩
  | .hbm, ⟨81, _⟩ => ⟨S740000x1, .f32⟩
  | .hbm, ⟨82, _⟩ => ⟨S740000x128, .f32⟩
  | .hbm, ⟨83, _⟩ => ⟨S740000x128, .f32⟩
  | .hbm, ⟨84, _⟩ => ⟨S_, .f32⟩
  | .hbm, ⟨85, _⟩ => ⟨S100000x128, .f32⟩
  | .hbm, ⟨86, _⟩ => ⟨S740000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x64, .f32⟩
  | .hbm, ⟨95, _⟩ => ⟨S_, .i32⟩
  | .hbm, ⟨96, _⟩ => ⟨S740000, .i32⟩
  | .hbm, ⟨97, _⟩ => ⟨S740000, .i1⟩
  | .hbm, ⟨98, _⟩ => ⟨S_, .i32⟩
  | .hbm, ⟨99, _⟩ => ⟨S740000, .i32⟩
  | .hbm, ⟨100, _⟩ => ⟨S740000, .i32⟩
  | .hbm, ⟨101, _⟩ => ⟨S740000, .i32⟩
  | .hbm, ⟨102, _⟩ => ⟨S740000x1, .i32⟩
  | .hbm, ⟨103, _⟩ => ⟨S740000x64, .f32⟩
  | .hbm, ⟨104, _⟩ => ⟨S740000x1, .f32⟩
  | .hbm, ⟨105, _⟩ => ⟨S740000x64, .f32⟩
  | .hbm, ⟨106, _⟩ => ⟨S740000x64, .f32⟩
  | .hbm, ⟨107, _⟩ => ⟨S_, .f32⟩
  | .hbm, ⟨108, _⟩ => ⟨S100000x64, .f32⟩
  | .hbm, ⟨109, _⟩ => ⟨S740000x1, .i32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S740000x1_S740000x64_0_1 : S740000x1.BroadcastsInDim S740000x64 (![0, 1] : Fin 2 → Fin S740000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S10000x128_S128x128_S10000x128_1_0_0_1_n_n_wf : DotDims.WF S10000x128 S128x128 S10000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S10000x128_S128x64_S10000x64_1_0_0_1_n_n_wf : DotDims.WF S10000x128 S128x64 S10000x64 [1] [0] [0] [1] [] []
  gather_S100000x64_S740000x1_S740000x64_1_0_n_n_0_1_164_wf : GatherDims.WF S100000x64 S740000x1 S740000x64 [1] [0] [] [0] [] 1 ![1, 64]
  scatter_S100000x64_S740000x1_S740000x64_1_0_0_1_wf : ScatterDims.WF S100000x64 S740000x1 S740000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S740000x1_S740000x64_1_0_n_n_0_1_164 : GatherDims S100000x64 S740000x1 S740000x64 where
  offsetDims := [1]
  collapsedSliceDims := [0]
  operandBatchingDims := []
  startIndicesBatchingDims := []
  startIndexMap := [0]
  indexVectorDim := 1
  sliceSizes := ![1, 64]
  wf := gather_S100000x64_S740000x1_S740000x64_1_0_n_n_0_1_164_wf
def scatter_S100000x64_S740000x1_S740000x64_1_0_0_1 : ScatterDims S100000x64 S740000x1 S740000x64 where
  updateWindowDims := [1]
  insertedWindowDims := [0]
  scatterDimsToOperandDims := [0]
  indexVectorDim := 1
  wf := scatter_S100000x64_S740000x1_S740000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩
abbrev S100000x64 : Shape := ⟨2, ![100000, 64]⟩
abbrev S740000x64 : Shape := ⟨2, ![740000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x640000, .i32⟩
  | .hbm, ⟨10, _⟩ => ⟨S640000, .i32⟩
  | .hbm, ⟨11, _⟩ => ⟨S740000, .i32⟩
  | .hbm, ⟨12, _⟩ => ⟨S1x640000, .i32⟩
  | .hbm, ⟨13, _⟩ => ⟨S640000, .i32⟩
  | .hbm, ⟨14, _⟩ => ⟨S740000, .i32⟩
  | .hbm, ⟨15, _⟩ => ⟨S_, .f32⟩
  | .hbm, ⟨16, _⟩ => ⟨S740000, .f32⟩
  | .hbm, ⟨17, _⟩ => ⟨S_, .f32⟩
  | .hbm, ⟨18, _⟩ => ⟨S100000, .f32⟩
  | .hbm, ⟨19, _⟩ => ⟨S740000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S740000, .i32⟩
  | .hbm, ⟨31, _⟩ => ⟨S740000, .i1⟩
  | .hbm, ⟨32, _⟩ => ⟨S_, .i32⟩
  | .hbm, ⟨33, _⟩ => ⟨S740000, .i32⟩
  | .hbm, ⟨34, _⟩ => ⟨S740000, .i32⟩
  | .hbm, ⟨35, _⟩ => ⟨S740000, .i32⟩
  | .hbm, ⟨36, _⟩ => ⟨S740000x1, .i32⟩
  | .hbm, ⟨37, _⟩ => ⟨S740000, .f32⟩
  | .hbm, ⟨38, _⟩ => ⟨S_, .i32⟩
  | .hbm, ⟨39, _⟩ => ⟨S740000, .i32⟩
  | .hbm, ⟨40, _⟩ => ⟨S740000, .i1⟩
  | .hbm, ⟨41, _⟩ => ⟨S_, .i32⟩
  | .hbm, ⟨42, _⟩ => ⟨S740000, .i32⟩
  | .hbm, ⟨43, _⟩ => ⟨S740000, .i32⟩
  | .hbm, ⟨44, _⟩ => ⟨S740000, .i32⟩
  | .hbm, ⟨45, _⟩ => ⟨S740000x1, .i32⟩
  | .hbm, ⟨46, _⟩ => ⟨S740000, .f32⟩
  | .hbm, ⟨47, _⟩ => ⟨S740000, .f32⟩
  | .hbm, ⟨48, _⟩ => ⟨S100000x128, .f32⟩
  | .hbm, ⟨49, _⟩ => ⟨S_, .i32⟩
  | .hbm, ⟨50, _⟩ => ⟨S740000, .i32⟩
  | .hbm, ⟨51, _⟩ => ⟨S740000, .i1⟩
  | .hbm, ⟨52, _⟩ => ⟨S_, .i32⟩
  | .hbm, ⟨53, _⟩ => ⟨S740000, .i32⟩
  | .hbm, ⟨54, _⟩ => ⟨S740000, .i32⟩
  | .hbm, ⟨55, _⟩ => ⟨S740000, .i32⟩
  | .hbm, ⟨56, _⟩ => ⟨S740000x1, .i32⟩
  | .hbm, ⟨57, _⟩ => ⟨S740000x128, .f32⟩
  | .hbm, ⟨58, _⟩ => ⟨S740000x1, .f32⟩
  | .hbm, ⟨59, _⟩ => ⟨S740000x128, .f32⟩
  | .hbm, ⟨60, _⟩ => ⟨S740000x128, .f32⟩
  | .hbm, ⟨61, _⟩ => ⟨S_, .f32⟩
  | .hbm, ⟨62, _⟩ => ⟨S100000x128, .f32⟩
  | .hbm, ⟨63, _⟩ => ⟨S740000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S740000, .i32⟩
  | .hbm, ⟨74, _⟩ => ⟨S740000, .i1⟩
  | .hbm, ⟨75, _⟩ => ⟨S_, .i32⟩
  | .hbm, ⟨76, _⟩ => ⟨S740000, .i32⟩
  | .hbm, ⟨77, _⟩ => ⟨S740000, .i32⟩
  | .hbm, ⟨78, _⟩ => ⟨S740000, .i32⟩
  | .hbm, ⟨79, _⟩ => ⟨S740000x1, .i32⟩
  | .hbm, ⟨80, _⟩ => ⟨S740000x128, .f32⟩
  | .hbm, ⟨81, _⟩ => ⟨S740000x1, .f32⟩
  | .hbm, ⟨82, _⟩ => ⟨S740000x128, .f32⟩
  | .hbm, ⟨83, _⟩ => ⟨S740000x128, .f32⟩
  | .hbm, ⟨84, _⟩ => ⟨S_, .f32⟩
  | .hbm, ⟨85, _⟩ => ⟨S100000x128, .f32⟩
  | .hbm, ⟨86, _⟩ => ⟨S740000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x64, .f32⟩
  | .hbm, ⟨95, _⟩ => ⟨S_, .i32⟩
  | .hbm, ⟨96, _⟩ => ⟨S740000, .i32⟩
  | .hbm, ⟨97, _⟩ => ⟨S740000, .i1⟩
  | .hbm, ⟨98, _⟩ => ⟨S_, .i32⟩
  | .hbm, ⟨99, _⟩ => ⟨S740000, .i32⟩
  | .hbm, ⟨100, _⟩ => ⟨S740000, .i32⟩
  | .hbm, ⟨101, _⟩ => ⟨S740000, .i32⟩
  | .hbm, ⟨102, _⟩ => ⟨S740000x1, .i32⟩
  | .hbm, ⟨103, _⟩ => ⟨S740000x64, .f32⟩
  | .hbm, ⟨104, _⟩ => ⟨S740000x1, .f32⟩
  | .hbm, ⟨105, _⟩ => ⟨S740000x64, .f32⟩
  | .hbm, ⟨106, _⟩ => ⟨S740000x64, .f32⟩
  | .hbm, ⟨107, _⟩ => ⟨S_, .f32⟩
  | .hbm, ⟨108, _⟩ => ⟨S100000x64, .f32⟩
  | .hbm, ⟨109, _⟩ => ⟨S740000x1, .i32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S740000x1_S740000x64_0_1 : S740000x1.BroadcastsInDim S740000x64 (![0, 1] : Fin 2 → Fin S740000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x128_S128x128_S100000x128_1_0_0_1_n_n_wf : DotDims.WF S100000x128 S128x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S100000x128_S128x64_S100000x64_1_0_0_1_n_n_wf : DotDims.WF S100000x128 S128x64 S100000x64 [1] [0] [0] [1] [] []
  gather_S100000x64_S740000x1_S740000x64_1_0_n_n_0_1_164_wf : GatherDims.WF S100000x64 S740000x1 S740000x64 [1] [0] [] [0] [] 1 ![1, 64]
  scatter_S100000x64_S740000x1_S740000x64_1_0_0_1_wf : ScatterDims.WF S100000x64 S740000x1 S740000x64 [1] [0] [0] 1

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S740000x1_S740000x64_1_0_n_n_0_1_164 : GatherDims S100000x64 S740000x1 S740000x64 where
  offsetDims := [1]
  collapsedSliceDims := [0]
  operandBatchingDims := []
  startIndicesBatchingDims := []
  startIndexMap := [0]
  indexVectorDim := 1
  sliceSizes := ![1, 64]
  wf := gather_S100000x64_S740000x1_S740000x64_1_0_n_n_0_1_164_wf
def scatter_S100000x64_S740000x1_S740000x64_1_0_0_1 : ScatterDims S100000x64 S740000x1 S740000x64 where
  updateWindowDims := [1]
  insertedWindowDims := [0]
  scatterDimsToOperandDims := [0]
  indexVectorDim := 1
  wf := scatter_S100000x64_S740000x1_S740000x64_1_0_0_1_wf

class Facts : Prop extends Facts₀ where

variable [Facts]
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.LibBlockProduct.lean ====
/-
  A matrix product computed one block of rows at a time.

  Let `x` be `M × K` and `w` be `K × N`. The host's product `x · w` at `(r, c)` is `∑ k, x (r, k) · w (k, c)`. A kernel
  that holds only `Mb` rows of `x` — a block `xb` whose row `p` is row `r` of `x` — and all of `w`, narrows both to a
  shorter float format (on ideal values a change of format is the identity) and multiplies them into a zero
  accumulator, gets at `(p, c)` the sum `∑ k, xb (p, k) · w (k, c)`: the same sum, term by term. Nothing is
  reassociated and no law of the extended reals beyond `0 + s = s` is used, so no finiteness is needed.

  Stated for any extents, with both products' dimension numbers the plain ones (`DotDims.plain`).
-/
import proofs.«180439_j5995774345336_1_alg».proof.Proof.LibPlainDot
import Idealize.ShloMosaic.PureOps.Ideal.Laws
import Idealize.ShloMosaic.Lib.ValueIdx

noncomputable section

namespace Idealize.ShloMosaic.BlockProduct

open Idealize.ShloMosaic Idealize.ShloMosaic.ValueIdx

variable (M Mb K N : Nat)

/-- The host's product with the plain dimension numbers, read at `i`: the sum over `k : Fin K`. -/
theorem host_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    Host.dotGeneral (DotDims.plain M K N) prec l r i = ∑ k : Fin K, l (ix2 (i 0) k) * r (ix2 k (i 1)) :=
  (Ideal.dotGeneral_apply (DotDims.plain M K N) prec .single l r i).trans (PlainDot.sum_contr M K N l r i)

/-- Narrowing a vector's float format leaves its ideal values as they are. -/
theorem truncf_apply {s : Shape} {φ ψ : FTy} (v : FVec Ideal s φ) (h : ψ.bits < φ.bits) (y : s.Idx) :
    truncf ψ v h y = v y := rfl

/-- The kernel's product on a block of rows, read at `j`, is the host's product of the whole arrays read at `i`, when
    row `j 0` of the block is row `i 0` of `x` (`hrow`) and the block's copy of `w` agrees with `w` on the column the two
    indices name (`hcol`). -/
theorem block_eq (prec prec' : Option ContractPrecision) (x : FVec Ideal ⟨2, ![M, K]⟩ .f32) (w : FVec Ideal ⟨2, ![K, N]⟩ .f32)
    (xb : FVec Ideal ⟨2, ![Mb, K]⟩ .f32) (wb : FVec Ideal ⟨2, ![K, N]⟩ .f32)
    (h1 : FTy.bits .bf16 < FTy.bits .f32)
    (j : (⟨2, ![Mb, N]⟩ : Shape).Idx) (i : (⟨2, ![M, N]⟩ : Shape).Idx)
    (hrow : ∀ k : Fin K, xb (ix2 (j 0) k) = x (ix2 (i 0) k))
    (hcol : ∀ k : Fin K, wb (ix2 k (j 1)) = w (ix2 k (i 1))) :
    matmul (DotDims.plain Mb K N) prec (truncf .bf16 xb h1) (truncf .bf16 wb h1) (constant ⟨2, ![Mb, N]⟩ .f32 0x00000000#32) j
      = Host.dotGeneral (DotDims.plain M K N) prec' x w i := by
  rw [PlainDot.matmul_zero_apply, host_apply]
  refine Finset.sum_congr rfl fun k _ => ?_
  rw [truncf_apply, truncf_apply, hrow k, hcol k]

end Idealize.ShloMosaic.BlockProduct

end
-- ==== Proof.Product0.lean ====
/-
  What the first matrix product of the program leaves in its output array.

  The product runs over a grid of ten points. Point `t` is handed rows `10000·t … 10000·t + 9999` of the left operand
  (all 128 columns) and the whole right operand, multiplies them — both first narrowed to bf16, which changes nothing
  at ideal values — into a zero accumulator, and writes the `10000 × 128` result over the same rows of the output.
  So at row `r = 10000·t + p` and column `q` the output holds `∑ k, x (r, k) · w (k, q)`: the host's product of the whole
  arrays. The ten row blocks are disjoint and together cover every row, hence the output array ends equal to that
  product. The contents the region is entered with are a parameter `V`.
-/
import proofs.«180439_j5995774345336_1_alg».proof.Proof.Gen.KernelIdeal.Frame
import proofs.«180439_j5995774345336_1_alg».proof.Proof.LibBlockProduct
import Idealize.ShloMosaic.Lib.Pipeline.Value
import Idealize.ShloMosaic.Lib.ValueIdx

set_option maxRecDepth 16384

noncomputable section

namespace Cert.KernelIdeal.Product0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The left operand as the region finds it. -/
abbrev lhsArr (c : Dev nD) : FVec Ideal S100000x128 .f32 := V c main_arg0
/-- The right operand as the region finds it. -/
abbrev rhsArr (c : Dev nD) : FVec Ideal S128x128 .f32 := V c main_arg2
/-- The host's product of the two whole arrays. -/
abbrev product (c : Dev nD) : FVec Ideal S100000x128 .f32 :=
  Host.dotGeneral (DotDims.plain 100000 128 128) none (lhsArr V c) (rhsArr V c)

/-- The rows a point is handed, and the whole right operand. -/
abbrev lhsBlk (c : Dev nD) (t : Fin cfg0.N) : Vec Ideal S10000x128 .f32 := iblk0 V c 0 t
abbrev rhsBlk (c : Dev nD) (t : Fin cfg0.N) : Vec Ideal S128x128 .f32 := iblk0 V c 1 t

/-- The body's result on a block of rows, at an index, is the whole product at the matching index. -/
theorem payload_at (xb : Vec Ideal S10000x128 .f32) (wb : Vec Ideal S128x128 .f32) (x : FVec Ideal S100000x128 .f32)
    (w : FVec Ideal S128x128 .f32) (j : S10000x128.Idx) (i : S100000x128.Idx)
    (hrow : ∀ k : Fin 128, xb (ix2 (j 0) k) = x (ix2 (i 0) k))
    (hcol : ∀ k : Fin 128, wb (ix2 k (j 1)) = w (ix2 k (i 1))) :
    k0_pay1 xb wb j = Host.dotGeneral (DotDims.plain 100000 128 128) none x w i := by
  unfold k0_pay1
  -- where the body first casts the block to its own shape, that cast is the identity
  try rw [shapeCast_self]
  exact BlockProduct.block_eq 100000 10000 128 128 none none x w xb wb bitsLt_bf16_f32 j i hrow hcol

/-- The printed index maps over the grid: the left operand's block moves with the output's along the rows, every other
    block index is zero, and the output's row block index stays below ten. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block of the output is some point's. -/
theorem index_onto : ∀ q : Fin 10, ∃ t : Fin cfg0.N, win0_2.index t = ![q.val, 0] :=
  (by decide +kernel : ∀ q : Fin 10, ∃ t : Fin grid0.N, win0_2.index t = ![q.val, 0])

/-- What point `t` writes back is its block of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  obtain ⟨e0, e1, e2, e3, e4, e5⟩ := index_facts t
  funext j
  show k0_pay1 (lhsBlk V c t) (rhsBlk V c t) j = product V c (((cfg0.win 2).blk t).view.emb j)
  refine payload_at (lhsBlk V c t) (rhsBlk V c t) (lhsArr V c) (rhsArr V c) j (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    refine congrArg (V c main_arg0) ?_
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg2 (((cfg0.win 1).blk t).view.emb (ix2 k (j 1))) = V c main_arg2 (ix2 k ((((cfg0.win 2).blk t).view.emb j) 1))
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point `t`'s block iff each coordinate is in the block's range on its axis. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Row `r` lies in the block of the point whose row block index is `r / 10000`: the blocks cover the array. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the region: the host's product of the two operands as the region found them. -/
theorem array_eq (c : Dev nD) : (dat0 V c).arrAt 2 cfg0.N = product V c :=
  (dat0 V c).arrAt_eq_of_cover 2 (product V c) (fun t _ => flushed_eq V c t) (covered)

end Cert.KernelIdeal.Product0

end
-- ==== Proof.Product1.lean ====
/-
  What the second matrix product of the program leaves in its output array.

  The product runs over a grid of ten points. Point `t` is handed rows `10000·t … 10000·t + 9999` of the left operand
  (all 128 columns) and the whole right operand, multiplies them — both first narrowed to bf16, which changes nothing
  at ideal values — into a zero accumulator, and writes the `10000 × 128` result over the same rows of the output.
  So at row `r = 10000·t + p` and column `q` the output holds `∑ k, x (r, k) · w (k, q)`: the host's product of the whole
  arrays. The ten row blocks are disjoint and together cover every row, hence the output array ends equal to that
  product. The contents the region is entered with are a parameter `V`.
-/
import proofs.«180439_j5995774345336_1_alg».proof.Proof.Gen.KernelIdeal.Frame
import proofs.«180439_j5995774345336_1_alg».proof.Proof.LibBlockProduct
import Idealize.ShloMosaic.Lib.Pipeline.Value
import Idealize.ShloMosaic.Lib.ValueIdx

set_option maxRecDepth 16384

noncomputable section

namespace Cert.KernelIdeal.Product1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The left operand as the region finds it. -/
abbrev lhsArr (c : Dev nD) : FVec Ideal S100000x128 .f32 := V c main_v47
/-- The right operand as the region finds it. -/
abbrev rhsArr (c : Dev nD) : FVec Ideal S128x128 .f32 := V c main_arg4
/-- The host's product of the two whole arrays. -/
abbrev product (c : Dev nD) : FVec Ideal S100000x128 .f32 :=
  Host.dotGeneral (DotDims.plain 100000 128 128) none (lhsArr V c) (rhsArr V c)

/-- The rows a point is handed, and the whole right operand. -/
abbrev lhsBlk (c : Dev nD) (t : Fin cfg1.N) : Vec Ideal S10000x128 .f32 := iblk1 V c 0 t
abbrev rhsBlk (c : Dev nD) (t : Fin cfg1.N) : Vec Ideal S128x128 .f32 := iblk1 V c 1 t

/-- The body's result on a block of rows, at an index, is the whole product at the matching index. -/
theorem payload_at (xb : Vec Ideal S10000x128 .f32) (wb : Vec Ideal S128x128 .f32) (x : FVec Ideal S100000x128 .f32)
    (w : FVec Ideal S128x128 .f32) (j : S10000x128.Idx) (i : S100000x128.Idx)
    (hrow : ∀ k : Fin 128, xb (ix2 (j 0) k) = x (ix2 (i 0) k))
    (hcol : ∀ k : Fin 128, wb (ix2 k (j 1)) = w (ix2 k (i 1))) :
    k1_pay1 xb wb j = Host.dotGeneral (DotDims.plain 100000 128 128) none x w i := by
  unfold k1_pay1
  -- where the body first casts the block to its own shape, that cast is the identity
  try rw [shapeCast_self]
  exact BlockProduct.block_eq 100000 10000 128 128 none none x w xb wb bitsLt_bf16_f32 j i hrow hcol

/-- The printed index maps over the grid: the left operand's block moves with the output's along the rows, every other
    block index is zero, and the output's row block index stays below ten. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block of the output is some point's. -/
theorem index_onto : ∀ q : Fin 10, ∃ t : Fin cfg1.N, win1_2.index t = ![q.val, 0] :=
  (by decide +kernel : ∀ q : Fin 10, ∃ t : Fin grid1.N, win1_2.index t = ![q.val, 0])

/-- What point `t` writes back is its block of the whole product. -/
theorem flushed_eq (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S128x128) zero_offsets]
  obtain ⟨e0, e1, e2, e3, e4, e5⟩ := index_facts t
  funext j
  show k1_pay1 (lhsBlk V c t) (rhsBlk V c t) j = product V c (((cfg1.win 2).blk t).view.emb j)
  refine payload_at (lhsBlk V c t) (rhsBlk V c t) (lhsArr V c) (rhsArr V c) j (((cfg1.win 2).blk t).view.emb j) (fun k => ?_) (fun k => ?_)
  · show V c main_v47 (((cfg1.win 0).blk t).view.emb (ix2 (j 0) k)) = V c main_v47 (ix2 ((((cfg1.win 2).blk t).view.emb j) 0) k)
    refine congrArg (V c main_v47) ?_
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * k.val = k.val; omega
  · show V c main_arg4 (((cfg1.win 1).blk t).view.emb (ix2 k (j 1))) = V c main_arg4 (ix2 k ((((cfg1.win 2).blk t).view.emb j) 1))
    refine congrArg (V c main_arg4) ?_
    funext a; apply Fin.ext
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega

/-- An index of the output array is in point `t`'s block iff each coordinate is in the block's range on its axis. -/
theorem mem_block (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v48).slice (win1_2.rect t)).set ↔ _
  rw [View.set_slice_whole, Rect.mem_set_unit]
  exact Iff.rfl

/-- Row `r` lies in the block of the point whose row block index is `r / 10000`: the blocks cover the array. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The output array after the region: the host's product of the two operands as the region found them. -/
theorem array_eq (c : Dev nD) : (dat1 V c).arrAt 2 cfg1.N = product V c :=
  (dat1 V c).arrAt_eq_of_cover 2 (product V c) (fun t _ => flushed_eq V c t) (covered)

end Cert.KernelIdeal.Product1

end
-- ==== Proof.Product2.lean ====
/-
  What the third matrix product of the program leaves in its output array.

  The product runs over a grid of ten points. Point `t` is handed rows `10000·t … 10000·t + 9999` of the left operand
  (all 128 columns) and the whole right operand, multiplies them — both first narrowed to bf16, which changes nothing
  at ideal values — into a zero accumulator, and writes the `10000 × 64` result over the same rows of the output.
  So at row `r = 10000·t + p` and column `q` the output holds `∑ k, x (r, k) · w (k, q)`: the host's product of the whole
  arrays. The ten row blocks are disjoint and together cover every row, hence the output array ends equal to that
  product. The contents the region is entered with are a parameter `V`.
-/
import proofs.«180439_j5995774345336_1_alg».proof.Proof.Gen.KernelIdeal.Frame
import proofs.«180439_j5995774345336_1_alg».proof.Proof.LibBlockProduct
import Idealize.ShloMosaic.Lib.Pipeline.Value
import Idealize.ShloMosaic.Lib.ValueIdx

set_option maxRecDepth 16384

noncomputable section

namespace Cert.KernelIdeal.Product2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The left operand as the region finds it. -/
abbrev lhsArr (c : Dev nD) : FVec Ideal S100000x128 .f32 := V c main_v65
/-- The right operand as the region finds it. -/
abbrev rhsArr (c : Dev nD) : FVec Ideal S128x64 .f32 := V c main_arg6
/-- The host's product of the two whole arrays. -/
abbrev product (c : Dev nD) : FVec Ideal S100000x64 .f32 :=
  Host.dotGeneral (DotDims.plain 100000 128 64) none (lhsArr V c) (rhsArr V c)

/-- The rows a point is handed, and the whole right operand. -/
abbrev lhsBlk (c : Dev nD) (t : Fin cfg2.N) : Vec Ideal S10000x128 .f32 := iblk2 V c 0 t
abbrev rhsBlk (c : Dev nD) (t : Fin cfg2.N) : Vec Ideal S128x64 .f32 := iblk2 V c 1 t

/-- The body's result on a block of rows, at an index, is the whole product at the matching index. -/
theorem payload_at (xb : Vec Ideal S10000x128 .f32) (wb : Vec Ideal S128x64 .f32) (x : FVec Ideal S100000x128 .f32)
    (w : FVec Ideal S128x64 .f32) (j : S10000x64.Idx) (i : S100000x64.Idx)
    (hrow : ∀ k : Fin 128, xb (ix2 (j 0) k) = x (ix2 (i 0) k))
    (hcol : ∀ k : Fin 128, wb (ix2 k (j 1)) = w (ix2 k (i 1))) :
    k2_pay1 xb wb j = Host.dotGeneral (DotDims.plain 100000 128 64) none x w i := by
  unfold k2_pay1
  -- where the body first casts the block to its own shape, that cast is the identity
  try rw [shapeCast_self]
  exact BlockProduct.block_eq 100000 10000 128 64 none none x w xb wb bitsLt_bf16_f32 j i hrow hcol

/-- The printed index maps over the grid: the left operand's block moves with the output's along the rows, every other
    block index is zero, and the output's row block index stays below ten. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every row block of the output is some point's. -/
theorem index_onto : ∀ q : Fin 10, ∃ t : Fin cfg2.N, win2_2.index t = ![q.val, 0] :=
  (by decide +kernel : ∀ q : Fin 10, ∃ t : Fin grid2.N, win2_2.index t = ![q.val, 0])

/-- What point `t` writes back is its block of the whole product. -/
theorem flushed_eq (c : Dev nD) (t : Fin cfg2.N) :
    (dat2 V c).flushed 2 t = ((cfg2.win 2).blk t).view.read (Elt Ideal) (product V c) := by
  show (cfg2.win 2).cut (grid2.coords t) ((dat2 V c).after 2 t) = _
  rw [after2_2]
  unfold out2_2
  rw [View.canon_unit_zero zero_offsets]
  simp only [View.ld_unit_zero (S := S10000x128) zero_offsets, View.ld_unit_zero (S := S128x64) zero_offsets]
  obtain ⟨e0, e1, e2, e3, e4, e5⟩ := index_facts t
  funext j
  show k2_pay1 (lhsBlk V c t) (rhsBlk V c t) j = product V c (((cfg2.win 2).blk t).view.emb j)
  refine payload_at (lhsBlk V c t) (rhsBlk V c t) (lhsArr V c) (rhsArr V c) j (((cfg2.win 2).blk t).view.emb j) (fun k => ?_) (fun k => ?_)
  · show V c main_v65 (((cfg2.win 0).blk t).view.emb (ix2 (j 0) k)) = V c main_v65 (ix2 ((((cfg2.win 2).blk t).view.emb j) 0) k)
    refine congrArg (V c main_v65) ?_
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * k.val = k.val; omega
  · show V c main_arg6 (((cfg2.win 1).blk t).view.emb (ix2 k (j 1))) = V c main_arg6 (ix2 k ((((cfg2.win 2).blk t).view.emb j) 1))
    refine congrArg (V c main_arg6) ?_
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega

/-- An index of the output array is in point `t`'s block iff each coordinate is in the block's range on its axis. -/
theorem mem_block (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v66).slice (win2_2.rect t)).set ↔ _
  rw [View.set_slice_whole, Rect.mem_set_unit]
  exact Iff.rfl

/-- Row `r` lies in the block of the point whose row block index is `r / 10000`: the blocks cover the array. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The output array after the region: the host's product of the two operands as the region found them. -/
theorem array_eq (c : Dev nD) : (dat2 V c).arrAt 2 cfg2.N = product V c :=
  (dat2 V c).arrAt_eq_of_cover 2 (product V c) (fun t _ => flushed_eq V c t) (covered)

end Cert.KernelIdeal.Product2

end
-- ==== Proof.HostChain.lean ====
/-
  What the program's buffers hold at each boundary between its host stretches and its three matrix products.

  The program is: a first host stretch that, from the edge list alone, makes the source indices (edges then self
  loops), the destination indices and the edge weights `norm`; then three times a matrix product followed by a host
  stretch that gathers the product's rows at the sources, scales them by `norm`, sums them into the destinations and
  adds a bias (with `max(·, 0)` after the first two). The reference is the same list of host operations with a host
  product in place of each kernel product. So, reading the buffers boundary by boundary:

  * at the first product's entry the three index and weight arrays are the reference's stages of the edge list, and
    the arguments are as launched;
  * each product's output array is the host's product of its two operands (the three product modules), and a product
    writes nothing else;
  * each later stretch computes, from buffers that hold the reference's stages, the reference's next stage — the
    operations are the same, so once the leaves agree the two terms are one;
  * no stretch and no product writes the index and weight arrays or an argument, so they are carried along.

  The last boundary's result buffer is then the reference's last stage of the arguments.
-/
import proofs.«180439_j5995774345336_1_alg».proof.Proof.Gen.KernelIdeal.Frame
import proofs.«180439_j5995774345336_1_alg».proof.Proof.RefRead
import proofs.«180439_j5995774345336_1_alg».proof.Proof.Product0
import proofs.«180439_j5995774345336_1_alg».proof.Proof.Product1
import proofs.«180439_j5995774345336_1_alg».proof.Proof.Product2

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo
open Cert.ReferenceIdeal.RefRead

variable (m : (ℓ : Loc nD τ sig) → Buf (Elt Ideal) ℓ) (ρ : Dev nD → PrngReg) (c : Dev nD)

/-! ## The arguments as launched -/

abbrev a0 : (⟨S100000x128, .f32⟩ : BufTy).Contents (Elt Ideal) := m ((c : Thread nD τ).loc main_arg0)
abbrev a1 : (⟨S2x640000, .i32⟩ : BufTy).Contents (Elt Ideal) := m ((c : Thread nD τ).loc main_arg1)
abbrev a2 : (⟨S128x128, .f32⟩ : BufTy).Contents (Elt Ideal) := m ((c : Thread nD τ).loc main_arg2)
abbrev a3 : (⟨S128, .f32⟩ : BufTy).Contents (Elt Ideal) := m ((c : Thread nD τ).loc main_arg3)
abbrev a4 : (⟨S128x128, .f32⟩ : BufTy).Contents (Elt Ideal) := m ((c : Thread nD τ).loc main_arg4)
abbrev a5 : (⟨S128, .f32⟩ : BufTy).Contents (Elt Ideal) := m ((c : Thread nD τ).loc main_arg5)
abbrev a6 : (⟨S128x64, .f32⟩ : BufTy).Contents (Elt Ideal) := m ((c : Thread nD τ).loc main_arg6)
abbrev a7 : (⟨S64, .f32⟩ : BufTy).Contents (Elt Ideal) := m ((c : Thread nD τ).loc main_arg7)

/-! ## What every later stretch reads and nothing writes -/

/-- At contents `W`: the source and destination indices and the edge weights are the reference's stages of the edge
    list, and the five arguments still to be read are as launched. -/
structure Carried (W : Valuation τ sig (Elt Ideal)) : Prop where
  src : W (Proc.devRef .tc main_v3) = val_main_v3 (a1 m c)
  dst : W (Proc.devRef .tc main_v6) = val_main_v6 (a1 m c)
  nrm : W (Proc.devRef .tc main_v29) = val_main_v29 (a1 m c)
  b1 : W (Proc.devRef .tc main_arg3) = a3 m c
  w2 : W (Proc.devRef .tc main_arg4) = a4 m c
  b2 : W (Proc.devRef .tc main_arg5) = a5 m c
  w3 : W (Proc.devRef .tc main_arg6) = a6 m c
  b3 : W (Proc.devRef .tc main_arg7) = a7 m c

/-- Contents that agree with `W` on those eight buffers carry the same facts. -/
theorem Carried.of_agree {W W' : Valuation τ sig (Elt Ideal)} (h : Carried m c W)
    (e_src : W' (Proc.devRef .tc main_v3) = W (Proc.devRef .tc main_v3))
    (e_dst : W' (Proc.devRef .tc main_v6) = W (Proc.devRef .tc main_v6))
    (e_nrm : W' (Proc.devRef .tc main_v29) = W (Proc.devRef .tc main_v29))
    (e_b1 : W' (Proc.devRef .tc main_arg3) = W (Proc.devRef .tc main_arg3))
    (e_w2 : W' (Proc.devRef .tc main_arg4) = W (Proc.devRef .tc main_arg4))
    (e_b2 : W' (Proc.devRef .tc main_arg5) = W (Proc.devRef .tc main_arg5))
    (e_w3 : W' (Proc.devRef .tc main_arg6) = W (Proc.devRef .tc main_arg6))
    (e_b3 : W' (Proc.devRef .tc main_arg7) = W (Proc.devRef .tc main_arg7)) : Carried m c W' :=
  ⟨e_src.trans h.src, e_dst.trans h.dst, e_nrm.trans h.nrm, e_b1.trans h.b1, e_w2.trans h.w2, e_b2.trans h.b2, e_w3.trans h.w3, e_b3.trans h.b3⟩

/-! ## The host stretches, at any contents `W` they are entered with

Each stretch is a literal list of operations, so what it leaves in a buffer is a term over `W` at the buffers it reads.
Stated at an arbitrary `W`, and for any float family: the boundary contents of the run are long folds, and nothing here
needs to open them or to know what a float is — the two sides are the same operations on the same leaves. -/

section Stretches

variable {F : FTy → Type} [FloatOps F] (W : Valuation τ sig (Elt F))

/-- The stretch before the first product. -/
abbrev after0 : Valuation τ sig (Elt F) := StableHlo.after hostOps0_2 (StableHlo.after hostOps0_1 (StableHlo.after hostOps0 W))
/-- The stretch between the first and the second product. -/
abbrev after1 : Valuation τ sig (Elt F) := StableHlo.after hostOps1_1 (StableHlo.after hostOps1 W)
/-- The stretch between the second and the third product. -/
abbrev after2 : Valuation τ sig (Elt F) := StableHlo.after hostOps2_1 (StableHlo.after hostOps2 W)
/-- The stretch after the third product. -/
abbrev after3 : Valuation τ sig (Elt F) := StableHlo.after hostOps3 W

/-- One pass over the stretch reads every operation's result; what it leaves unread inside a concatenate's operand
    list is then rewritten one operation at a time. -/
local macro "read_stretch" : tactic =>
  `(tactic| (after_results_simp
             (repeat (first
      | rw [nullary_result] | rw [unary_result] | rw [binary_result] | rw [ternary_result] | rw [quaternary_result] | rw [reshape_result]
      | (rw [nullary_result_ne]; rotate_left; decide) | (rw [unary_result_ne]; rotate_left; decide)
      | (rw [binary_result_ne]; rotate_left; decide) | (rw [ternary_result_ne]; rotate_left; decide)
      | (rw [quaternary_result_ne]; rotate_left; decide) | (rw [reshape_result_ne]; rotate_left; decide)))))

variable {W} in
/-- Sources: the edge list's first row, then every node. -/
theorem after0_src {x1 : (⟨S2x640000, .i32⟩ : BufTy).Contents (Elt F)} (h1 : W (Proc.devRef .tc main_arg1) = x1) :
    after0 W (Proc.devRef .tc main_v3) = val_main_v3 (F := F) x1 := by
  dsimp only [after0, hostOps0, hostOps0_1, hostOps0_2]
  read_stretch
  rw [h1]
  rfl

variable {W} in
/-- Destinations: the edge list's second row, then every node. -/
theorem after0_dst {x1 : (⟨S2x640000, .i32⟩ : BufTy).Contents (Elt F)} (h1 : W (Proc.devRef .tc main_arg1) = x1) :
    after0 W (Proc.devRef .tc main_v6) = val_main_v6 (F := F) x1 := by
  dsimp only [after0, hostOps0, hostOps0_1, hostOps0_2]
  read_stretch
  rw [h1]
  rfl

variable {W} in
set_option maxHeartbeats 4000000 in
/-- Weights: `d^{-1/2}` gathered at the sources times `d^{-1/2}` gathered at the destinations, `d` the count of
    destinations equal to each node, and `d^{-1/2}` read as zero where `d` is not positive. -/
theorem after0_nrm {x1 : (⟨S2x640000, .i32⟩ : BufTy).Contents (Elt F)} (h1 : W (Proc.devRef .tc main_arg1) = x1) :
    after0 W (Proc.devRef .tc main_v29) = val_main_v29 (F := F) x1 := by
  dsimp only [after0, hostOps0, hostOps0_1, hostOps0_2]
  read_stretch
  rw [h1]
  try simp only [TRef.ofBuf, TRef.toBuf, cast_eq]
  rfl

theorem after0_keeps_main_arg0 : after0 W (Proc.devRef .tc main_arg0) = W (Proc.devRef .tc main_arg0) := by
  dsimp only [after0, hostOps0, hostOps0_1, hostOps0_2]
  after_results_simp
theorem after0_keeps_main_arg2 : after0 W (Proc.devRef .tc main_arg2) = W (Proc.devRef .tc main_arg2) := by
  dsimp only [after0, hostOps0, hostOps0_1, hostOps0_2]
  after_results_simp
theorem after0_keeps_main_arg3 : after0 W (Proc.devRef .tc main_arg3) = W (Proc.devRef .tc main_arg3) := by
  dsimp only [after0, hostOps0, hostOps0_1, hostOps0_2]
  after_results_simp
theorem after0_keeps_main_arg4 : after0 W (Proc.devRef .tc main_arg4) = W (Proc.devRef .tc main_arg4) := by
  dsimp only [after0, hostOps0, hostOps0_1, hostOps0_2]
  after_results_simp
theorem after0_keeps_main_arg5 : after0 W (Proc.devRef .tc main_arg5) = W (Proc.devRef .tc main_arg5) := by
  dsimp only [after0, hostOps0, hostOps0_1, hostOps0_2]
  after_results_simp
theorem after0_keeps_main_arg6 : after0 W (Proc.devRef .tc main_arg6) = W (Proc.devRef .tc main_arg6) := by
  dsimp only [after0, hostOps0, hostOps0_1, hostOps0_2]
  after_results_simp
theorem after0_keeps_main_arg7 : after0 W (Proc.devRef .tc main_arg7) = W (Proc.devRef .tc main_arg7) := by
  dsimp only [after0, hostOps0, hostOps0_1, hostOps0_2]
  after_results_simp

variable {W} in
/-- Gather the product's rows at the sources, scale by the weights, sum into the destinations, add the bias, clamp at
    zero: the reference's stage, once the buffers read hold the reference's stages. -/
theorem after1_out {x0 x1 x2 x3}
    (hp : W (Proc.devRef .tc main_v30) = val_main_v30 (F := F) x0 x2) (hs : W (Proc.devRef .tc main_v3) = val_main_v3 (F := F) x1)
    (hd : W (Proc.devRef .tc main_v6) = val_main_v6 (F := F) x1) (hn : W (Proc.devRef .tc main_v29) = val_main_v29 (F := F) x1)
    (hb : W (Proc.devRef .tc main_arg3) = x3) :
    after1 W (Proc.devRef .tc main_v47) = val_main_v47 (F := F) x0 x1 x2 x3 := by
  dsimp only [after1, hostOps1, hostOps1_1]
  after_results_simp
  rw [hp, hs, hd, hn, hb]
  try simp only [TRef.ofBuf, TRef.toBuf, cast_eq]
  rfl

theorem after1_keeps_main_v3 : after1 W (Proc.devRef .tc main_v3) = W (Proc.devRef .tc main_v3) := by
  dsimp only [after1, hostOps1, hostOps1_1]
  after_results_simp
theorem after1_keeps_main_v6 : after1 W (Proc.devRef .tc main_v6) = W (Proc.devRef .tc main_v6) := by
  dsimp only [after1, hostOps1, hostOps1_1]
  after_results_simp
theorem after1_keeps_main_v29 : after1 W (Proc.devRef .tc main_v29) = W (Proc.devRef .tc main_v29) := by
  dsimp only [after1, hostOps1, hostOps1_1]
  after_results_simp
theorem after1_keeps_main_arg3 : after1 W (Proc.devRef .tc main_arg3) = W (Proc.devRef .tc main_arg3) := by
  dsimp only [after1, hostOps1, hostOps1_1]
  after_results_simp
theorem after1_keeps_main_arg4 : after1 W (Proc.devRef .tc main_arg4) = W (Proc.devRef .tc main_arg4) := by
  dsimp only [after1, hostOps1, hostOps1_1]
  after_results_simp
theorem after1_keeps_main_arg5 : after1 W (Proc.devRef .tc main_arg5) = W (Proc.devRef .tc main_arg5) := by
  dsimp only [after1, hostOps1, hostOps1_1]
  after_results_simp
theorem after1_keeps_main_arg6 : after1 W (Proc.devRef .tc main_arg6) = W (Proc.devRef .tc main_arg6) := by
  dsimp only [after1, hostOps1, hostOps1_1]
  after_results_simp
theorem after1_keeps_main_arg7 : after1 W (Proc.devRef .tc main_arg7) = W (Proc.devRef .tc main_arg7) := by
  dsimp only [after1, hostOps1, hostOps1_1]
  after_results_simp

variable {W} in
/-- The same stretch one layer on. -/
theorem after2_out {x0 x1 x2 x3 x4 x5}
    (hp : W (Proc.devRef .tc main_v48) = val_main_v48 (F := F) x0 x1 x2 x3 x4) (hs : W (Proc.devRef .tc main_v3) = val_main_v3 (F := F) x1)
    (hd : W (Proc.devRef .tc main_v6) = val_main_v6 (F := F) x1) (hn : W (Proc.devRef .tc main_v29) = val_main_v29 (F := F) x1)
    (hb : W (Proc.devRef .tc main_arg5) = x5) :
    after2 W (Proc.devRef .tc main_v65) = val_main_v65 (F := F) x0 x1 x2 x3 x4 x5 := by
  dsimp only [after2, hostOps2, hostOps2_1]
  after_results_simp
  rw [hp, hs, hd, hn, hb]
  try simp only [TRef.ofBuf, TRef.toBuf, cast_eq]
  rfl

theorem after2_keeps_main_v3 : after2 W (Proc.devRef .tc main_v3) = W (Proc.devRef .tc main_v3) := by
  dsimp only [after2, hostOps2, hostOps2_1]
  after_results_simp
theorem after2_keeps_main_v6 : after2 W (Proc.devRef .tc main_v6) = W (Proc.devRef .tc main_v6) := by
  dsimp only [after2, hostOps2, hostOps2_1]
  after_results_simp
theorem after2_keeps_main_v29 : after2 W (Proc.devRef .tc main_v29) = W (Proc.devRef .tc main_v29) := by
  dsimp only [after2, hostOps2, hostOps2_1]
  after_results_simp
theorem after2_keeps_main_arg3 : after2 W (Proc.devRef .tc main_arg3) = W (Proc.devRef .tc main_arg3) := by
  dsimp only [after2, hostOps2, hostOps2_1]
  after_results_simp
theorem after2_keeps_main_arg4 : after2 W (Proc.devRef .tc main_arg4) = W (Proc.devRef .tc main_arg4) := by
  dsimp only [after2, hostOps2, hostOps2_1]
  after_results_simp
theorem after2_keeps_main_arg5 : after2 W (Proc.devRef .tc main_arg5) = W (Proc.devRef .tc main_arg5) := by
  dsimp only [after2, hostOps2, hostOps2_1]
  after_results_simp
theorem after2_keeps_main_arg6 : after2 W (Proc.devRef .tc main_arg6) = W (Proc.devRef .tc main_arg6) := by
  dsimp only [after2, hostOps2, hostOps2_1]
  after_results_simp
theorem after2_keeps_main_arg7 : after2 W (Proc.devRef .tc main_arg7) = W (Proc.devRef .tc main_arg7) := by
  dsimp only [after2, hostOps2, hostOps2_1]
  after_results_simp

variable {W} in
/-- The last layer: the same stretch on 64 columns, without the clamp. -/
theorem after3_out {x0 x1 x2 x3 x4 x5 x6 x7}
    (hp : W (Proc.devRef .tc main_v66) = val_main_v66 (F := F) x0 x1 x2 x3 x4 x5 x6) (hs : W (Proc.devRef .tc main_v3) = val_main_v3 (F := F) x1)
    (hd : W (Proc.devRef .tc main_v6) = val_main_v6 (F := F) x1) (hn : W (Proc.devRef .tc main_v29) = val_main_v29 (F := F) x1)
    (hb : W (Proc.devRef .tc main_arg7) = x7) :
    after3 W (Proc.devRef .tc main_v82) = val_main_v82 (F := F) x0 x1 x2 x3 x4 x5 x6 x7 := by
  dsimp only [after3, hostOps3]
  after_results_simp
  rw [hp, hs, hd, hn, hb]
  rfl

end Stretches

/-! ## The run's boundaries -/

theorem launch_arg (b : Ref sig .tc) : W0 m ρ c (Proc.devRef .tc b) = m ((c : Thread nD τ).loc b) := rfl

theorem entry0_lhs : W3 m ρ c (Proc.devRef .tc main_arg0) = a0 m c := after0_keeps_main_arg0 (W0 m ρ c)
theorem entry0_rhs : W3 m ρ c (Proc.devRef .tc main_arg2) = a2 m c := after0_keeps_main_arg2 (W0 m ρ c)

theorem carried3 : Carried m c (W3 m ρ c) :=
  ⟨after0_src (launch_arg m ρ c main_arg1), after0_dst (launch_arg m ρ c main_arg1), after0_nrm (launch_arg m ρ c main_arg1),
   after0_keeps_main_arg3 (W0 m ρ c), after0_keeps_main_arg4 (W0 m ρ c), after0_keeps_main_arg5 (W0 m ρ c),
   after0_keeps_main_arg6 (W0 m ρ c), after0_keeps_main_arg7 (W0 m ρ c)⟩

/-! ### The first product and the stretch after it -/

/-- The first product's output array is the reference's product stage of the launched `x` and `W1`. -/
theorem exit0 : W4 m ρ c (Proc.devRef .tc main_v30) = val_main_v30 (a0 m c) (a2 m c) := by
  refine (W4_arr m ρ c 2).trans ((Product0.array_eq (V3 m ρ) c).trans ?_)
  have e := congrArg₂ (fun (l : FVec Ideal S100000x128 .f32) (r : FVec Ideal S128x128 .f32) =>
    Host.dotGeneral (DotDims.plain 100000 128 128) none l r) (entry0_lhs m ρ c) (entry0_rhs m ρ c)
  exact e.trans (by unfold val_main_v30; rfl)

theorem carried4 : Carried m c (W4 m ρ c) :=
  (carried3 m ρ c).of_agree m c
    (W4_of_ne m ρ c main_v3 (by decide))
    (W4_of_ne m ρ c main_v6 (by decide))
    (W4_of_ne m ρ c main_v29 (by decide))
    (W4_of_ne m ρ c main_arg3 (by decide))
    (W4_of_ne m ρ c main_arg4 (by decide))
    (W4_of_ne m ρ c main_arg5 (by decide))
    (W4_of_ne m ρ c main_arg6 (by decide))
    (W4_of_ne m ρ c main_arg7 (by decide))

theorem entry1_lhs : W6 m ρ c (Proc.devRef .tc main_v47) = val_main_v47 (a0 m c) (a1 m c) (a2 m c) (a3 m c) :=
  after1_out (exit0 m ρ c) (carried4 m ρ c).src (carried4 m ρ c).dst (carried4 m ρ c).nrm (carried4 m ρ c).b1

theorem carried6 : Carried m c (W6 m ρ c) :=
  (carried4 m ρ c).of_agree m c
    (after1_keeps_main_v3 (W4 m ρ c))
    (after1_keeps_main_v6 (W4 m ρ c))
    (after1_keeps_main_v29 (W4 m ρ c))
    (after1_keeps_main_arg3 (W4 m ρ c))
    (after1_keeps_main_arg4 (W4 m ρ c))
    (after1_keeps_main_arg5 (W4 m ρ c))
    (after1_keeps_main_arg6 (W4 m ρ c))
    (after1_keeps_main_arg7 (W4 m ρ c))

/-! ### The second product and the stretch after it -/

theorem exit1 : W7 m ρ c (Proc.devRef .tc main_v48) = val_main_v48 (a0 m c) (a1 m c) (a2 m c) (a3 m c) (a4 m c) := by
  refine (W7_arr m ρ c 2).trans ((Product1.array_eq (V6 m ρ) c).trans ?_)
  have e := congrArg₂ (fun (l : FVec Ideal S100000x128 .f32) (r : FVec Ideal S128x128 .f32) =>
    Host.dotGeneral (DotDims.plain 100000 128 128) none l r) (entry1_lhs m ρ c) (carried6 m ρ c).w2
  exact e.trans (by unfold val_main_v48; rfl)

/-- The right operand is one of the product's own arrays: an input window's array is left as it was found. -/
theorem exit1_rhs : W7 m ρ c (Proc.devRef .tc main_arg4) = W6 m ρ c (Proc.devRef .tc main_arg4) :=
  (W7_arr m ρ c 1).trans (((dat1 (V6 m ρ) c).arrAt_in 1 rfl _).trans (A_eq1 (V6 m ρ) c 1))

theorem carried7 : Carried m c (W7 m ρ c) :=
  (carried6 m ρ c).of_agree m c
    (W7_of_ne m ρ c main_v3 (by decide))
    (W7_of_ne m ρ c main_v6 (by decide))
    (W7_of_ne m ρ c main_v29 (by decide))
    (W7_of_ne m ρ c main_arg3 (by decide))
    (exit1_rhs m ρ c)
    (W7_of_ne m ρ c main_arg5 (by decide))
    (W7_of_ne m ρ c main_arg6 (by decide))
    (W7_of_ne m ρ c main_arg7 (by decide))

theorem entry2_lhs : W9 m ρ c (Proc.devRef .tc main_v65) = val_main_v65 (a0 m c) (a1 m c) (a2 m c) (a3 m c) (a4 m c) (a5 m c) :=
  after2_out (exit1 m ρ c) (carried7 m ρ c).src (carried7 m ρ c).dst (carried7 m ρ c).nrm (carried7 m ρ c).b2

theorem carried9 : Carried m c (W9 m ρ c) :=
  (carried7 m ρ c).of_agree m c
    (after2_keeps_main_v3 (W7 m ρ c))
    (after2_keeps_main_v6 (W7 m ρ c))
    (after2_keeps_main_v29 (W7 m ρ c))
    (after2_keeps_main_arg3 (W7 m ρ c))
    (after2_keeps_main_arg4 (W7 m ρ c))
    (after2_keeps_main_arg5 (W7 m ρ c))
    (after2_keeps_main_arg6 (W7 m ρ c))
    (after2_keeps_main_arg7 (W7 m ρ c))

/-! ### The third product and the last stretch -/

theorem exit2 : W10 m ρ c (Proc.devRef .tc main_v66) = val_main_v66 (a0 m c) (a1 m c) (a2 m c) (a3 m c) (a4 m c) (a5 m c) (a6 m c) := by
  refine (W10_arr m ρ c 2).trans ((Product2.array_eq (V9 m ρ) c).trans ?_)
  have e := congrArg₂ (fun (l : FVec Ideal S100000x128 .f32) (r : FVec Ideal S128x64 .f32) =>
    Host.dotGeneral (DotDims.plain 100000 128 64) none l r) (entry2_lhs m ρ c) (carried9 m ρ c).w3
  exact e.trans (by unfold val_main_v66; rfl)

theorem exit2_rhs : W10 m ρ c (Proc.devRef .tc main_arg6) = W9 m ρ c (Proc.devRef .tc main_arg6) :=
  (W10_arr m ρ c 1).trans (((dat2 (V9 m ρ) c).arrAt_in 1 rfl _).trans (A_eq2 (V9 m ρ) c 1))

theorem carried10 : Carried m c (W10 m ρ c) :=
  (carried9 m ρ c).of_agree m c
    (W10_of_ne m ρ c main_v3 (by decide))
    (W10_of_ne m ρ c main_v6 (by decide))
    (W10_of_ne m ρ c main_v29 (by decide))
    (W10_of_ne m ρ c main_arg3 (by decide))
    (W10_of_ne m ρ c main_arg4 (by decide))
    (W10_of_ne m ρ c main_arg5 (by decide))
    (exit2_rhs m ρ c)
    (W10_of_ne m ρ c main_arg7 (by decide))

/-- The result buffer at the last boundary is the reference's last stage of the launched arguments. -/
theorem result_eq : W11 m ρ c (Proc.devRef .tc main_v82)
    = val_main_v82 (a0 m c) (a1 m c) (a2 m c) (a3 m c) (a4 m c) (a5 m c) (a6 m c) (a7 m c) :=
  after3_out (exit2 m ρ c) (carried10 m ρ c).src (carried10 m ρ c).dst (carried10 m ρ c).nrm (carried10 m ρ c).b3

end Cert.KernelIdeal.HostChain

end
-- ==== Proof.lean ====
/-
  The kernel program and its reference are the same three-layer graph convolution. From the edge list both make
  the source and destination indices (edges, then one self loop per node) and the symmetric weights
  `norm = d^{-1/2}[src] · d^{-1/2}[dst]`, `d` the in-degree with self loops; then, three times,
  `h ↦ segment_sum(norm · (h W)[src], dst) + b`, with `max(·, 0)` after the first two. The two programs differ
  only in who computes `h W`: the reference by one host product, the kernel program by a Pallas kernel over ten
  blocks of 10000 rows, each block's product taken on operands narrowed to bf16 and accumulated in f32 from zero.

  On ideal values narrowing is the identity, and a block's product into zero is, entry by entry, the same sum
  `∑ k, h (r, k) · W (k, q)` the host product is; the ten blocks tile the rows. So each kernel product leaves the
  host product in its output array (the three product modules), every host stretch between them is the reference's
  own list of operations applied to buffers that hold the reference's stages (the host-chain module), and the
  result arrays are equal — for every input, finite or not: nothing is reassociated and no infinite value is
  cancelled, so the precondition is not used. The idealization rewrote nothing, so `preserves` has nothing to show.
  The frames of the two kernel programs are the generated ones; the reference's is its run with the result dropped.
-/
import proofs.«180439_j5995774345336_1_alg».proof.Defs
import proofs.«180439_j5995774345336_1_alg».proof.Proof.Gen.Kernel
import proofs.«180439_j5995774345336_1_alg».proof.Proof.Gen.Kernel.Skeleton
import proofs.«180439_j5995774345336_1_alg».proof.Proof.Gen.Kernel.Launch
import proofs.«180439_j5995774345336_1_alg».proof.Proof.Gen.Kernel.Points
import proofs.«180439_j5995774345336_1_alg».proof.Proof.Gen.Kernel.Frame
import proofs.«180439_j5995774345336_1_alg».proof.Proof.Gen.KernelIdeal
import proofs.«180439_j5995774345336_1_alg».proof.Proof.Gen.KernelIdeal.Skeleton
import proofs.«180439_j5995774345336_1_alg».proof.Proof.Gen.KernelIdeal.Launch
import proofs.«180439_j5995774345336_1_alg».proof.Proof.Gen.KernelIdeal.Points
import proofs.«180439_j5995774345336_1_alg».proof.Proof.Gen.KernelIdeal.Frame
import proofs.«180439_j5995774345336_1_alg».proof.Proof.Gen.ReferenceIdeal
import proofs.«180439_j5995774345336_1_alg».proof.Proof.Gen.Pre_finite_inputs
import proofs.«180439_j5995774345336_1_alg».proof.Proof.KernelRun
import proofs.«180439_j5995774345336_1_alg».proof.Proof.RefRun
import proofs.«180439_j5995774345336_1_alg».proof.Proof.RefRead
import proofs.«180439_j5995774345336_1_alg».proof.Proof.HostChain
import Idealize.ShloMosaic.Adequacy
import Idealize.ShloMosaic.Init

noncomputable section

namespace Cert.Proof

open Idealize.ShloMosaic Idealize.ShloMosaic.TcCoe Idealize.SL.Sem

/-- The kernel program terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result's value dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both programs end with the result array at the reference's last stage of the (agreeing) arguments. -/
theorem algebraic : Cert.algebraic_KernelIdeal_ReferenceIdeal := by
  intro m ρ m' ρ' _ hagree
  refine ⟨fun c => Cert.ReferenceIdeal.RefRead.val_main_v82 (F := Ideal)
      (Cert.KernelIdeal.HostChain.a0 m c) (Cert.KernelIdeal.HostChain.a1 m c) (Cert.KernelIdeal.HostChain.a2 m c)
      (Cert.KernelIdeal.HostChain.a3 m c) (Cert.KernelIdeal.HostChain.a4 m c) (Cert.KernelIdeal.HostChain.a5 m c)
      (Cert.KernelIdeal.HostChain.a6 m c) (Cert.KernelIdeal.HostChain.a7 m c), ?_, ?_⟩
  · exact (θ_run Cert.KernelIdeal.defs _ _).mono
      (fun r h c => ⟨(h c).1.trans (Cert.KernelIdeal.HostChain.result_eq m ρ c), (h c).2⟩)
      (Cert.KernelIdeal.RunResult.run_result (F := Ideal) m ρ)
  · refine (θ_run Cert.ReferenceIdeal.defs _ _).mono (fun r h c => ⟨(h c).1.trans ?_, (h c).2⟩)
      (Cert.ReferenceIdeal.RefRun.run (F := Ideal) m' ρ')
    rw [Cert.ReferenceIdeal.RefRead.val_main_v82_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
